-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x1 : Shape := ⟨2, ![256, 1]⟩
abbrev S1 : Shape := ⟨1, ![1]⟩
abbrev S256x256 : Shape := ⟨2, ![256, 256]⟩
abbrev S256x128 : Shape := ⟨2, ![256, 128]⟩
abbrev S128 : Shape := ⟨1, ![128]⟩
abbrev S128x85 : Shape := ⟨2, ![128, 85]⟩
abbrev S85 : Shape := ⟨1, ![85]⟩
abbrev S85x64 : Shape := ⟨2, ![85, 64]⟩
abbrev S64 : Shape := ⟨1, ![64]⟩
abbrev S64x1 : Shape := ⟨2, ![64, 1]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x85 : S_.BroadcastsInDim S128x85 (![] : Fin 0 → Fin S128x85.rank)
  reducesTo_S128x85_S_d0_1 : S128x85.ReducesTo [0, 1] S_
  bcast_S_S85 : S_.BroadcastsInDim S85 (![] : Fin 0 → Fin S85.rank)
  reducesTo_S85_S_d0 : S85.ReducesTo [0] S_
  bcast_S_S85x64 : S_.BroadcastsInDim S85x64 (![] : Fin 0 → Fin S85x64.rank)
  reducesTo_S85x64_S_d0_1 : S85x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_

variable [Facts]

def fn_part3 {F : FTy → Type} [FloatOps F] (main_arg11 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S85 .f32) (main_arg8 : FVec F S85x64 .f32) (main_arg9 : FVec F S64 .f32) (main_arg10 : FVec F S64x1 .f32) (main_arg11 : FVec F S1 .f32) (main_v33 : IVec S_ 1) : IVec S_ 1 :=
  let main_v34 : FVec F S85 .f32 := Host.absf main_arg7
  let main_cst_12 : FVec F S_ .f32 := constant S_ .f32 0x7F800000#32
  let main_v35 : FVec F S85 .f32 := broadcastInDim S85 ![] bcast_S_S85 main_cst_12
  let main_v36 : IVec S85 1 := cmpf .olt main_v34 main_v35
  let main_c_13 : IVec S_ 1 := constantI S_ 1 1#1
  let main_v37 : IVec S_ 1 := (fun x v => Host.reduce IntOp.andi x v reducesTo_S85_S_d0 h_S_) main_v36 main_c_13
  let main_v38 : IVec S_ 1 := andi main_v33 main_v37
  let main_v39 : FVec F S85x64 .f32 := Host.absf main_arg8
  let main_cst_14 : FVec F S_ .f32 := constant S_ .f32 0x7F800000#32
  let main_v40 : FVec F S85x64 .f32 := broadcastInDim S85x64 ![] bcast_S_S85x64 main_cst_14
  let main_v41 : IVec S85x64 1 := cmpf .olt main_v39 main_v40
  let main_c_15 : IVec S_ 1 := constantI S_ 1 1#1
  let main_v42 : IVec S_ 1 := (fun x v => Host.reduce IntOp.andi x v reducesTo_S85x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg10
  let main_cst_18 : FVec F S_ .f32 := constant S_ .f32 0x7F800000#32
  let main_v50 : FVec F S64x1 .f32 := broadcastInDim S64x1 ![] bcast_S_S64x1 main_cst_18
  fn_part3 (F := F) main_arg11 main_v48 main_v49 main_v50

def fn_part1 {F : FTy → Type} [FloatOps F] (main_arg4 : FVec F S256x128 .f32) (main_arg5 : FVec F S128 .f32) (main_arg6 : FVec F S128x85 .f32) (main_arg7 : FVec F S85 .f32) (main_arg8 : FVec F S85x64 .f32) (main_arg9 : FVec F S64 .f32) (main_arg10 : FVec F S64x1 .f32) (main_arg11 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x85 .f32 := Host.absf main_arg6
  let main_cst_10 : FVec F S_ .f32 := constant S_ .f32 0x7F800000#32
  let main_v30 : FVec F S128x85 .f32 := broadcastInDim S128x85 ![] bcast_S_S128x85 main_cst_10
  let main_v31 : IVec S128x85 1 := cmpf .olt main_v29 main_v30
  let main_c_11 : IVec S_ 1 := constantI S_ 1 1#1
  let main_v32 : IVec S_ 1 := (fun x v => Host.reduce IntOp.andi x v reducesTo_S128x85_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S131072x256 .f32) (main_arg1 : FVec F S256x1 .f32) (main_arg2 : FVec F S1 .f32) (main_arg3 : FVec F S256x256 .f32) (main_arg4 : FVec F S256x128 .f32) (main_arg5 : FVec F S128 .f32) (main_arg6 : FVec F S128x85 .f32) (main_arg7 : FVec F S85 .f32) (main_arg8 : FVec F S85x64 .f32) (main_arg9 : FVec F S64 .f32) (main_arg10 : FVec F S64x1 .f32) (main_arg11 : FVec F S1 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x1 .f32 := Host.absf main_arg1
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_v13 main_v16
-- ==== Kernel.lean ====
abbrev S131072x256 : Shape := ⟨2, ![131072, 256]⟩
abbrev S256x1 : Shape := ⟨2, ![256, 1]⟩
abbrev S1 : Shape := ⟨1, ![1]⟩
abbrev S256x256 : Shape := ⟨2, ![256, 256]⟩
abbrev S256x128 : Shape := ⟨2, ![256, 128]⟩
abbrev S128 : Shape := ⟨1, ![128]⟩
abbrev S128x85 : Shape := ⟨2, ![128, 85]⟩
abbrev S85 : Shape := ⟨1, ![85]⟩
abbrev S85x64 : Shape := ⟨2, ![85, 64]⟩
abbrev S64 : Shape := ⟨1, ![64]⟩
abbrev S64x1 : Shape := ⟨2, ![64, 1]⟩
abbrev S1x1 : Shape := ⟨2, ![1, 1]⟩
abbrev S1x128 : Shape := ⟨2, ![1, 128]⟩
abbrev S1x85 : Shape := ⟨2, ![1, 85]⟩
abbrev S1x64 : Shape := ⟨2, ![1, 64]⟩
abbrev S131072x1 : Shape := ⟨2, ![131072, 1]⟩
abbrev S2048x256 : Shape := ⟨2, ![2048, 256]⟩
abbrev S2048x1 : Shape := ⟨2, ![2048, 1]⟩
abbrev S2048x128 : Shape := ⟨2, ![2048, 128]⟩
abbrev S2048x85 : Shape := ⟨2, ![2048, 85]⟩
abbrev S2048x64 : Shape := ⟨2, ![2048, 64]⟩

abbrev nBuf : Space → Nat
  | .hbm => 18
  | .vmem => 15
  | .smem => 0
  | _ => 0

abbrev bufTy : (tb : Table) → Fin (tcTables nBuf tb) → BufTy
  | .hbm, ⟨0, _⟩ => ⟨S131072x256, .f32⟩
  | .hbm, ⟨1, _⟩ => ⟨S256x1, .f32⟩
  | .hbm, ⟨2, _⟩ => ⟨S1, .f32⟩
  | .hbm, ⟨3, _⟩ => ⟨S256x256, .f32⟩
  | .hbm, ⟨4, _⟩ => ⟨S256x128, .f32⟩
  | .hbm, ⟨5, _⟩ => ⟨S128, .f32⟩
  | .hbm, ⟨6, _⟩ => ⟨S128x85, .f32⟩
  | .hbm, ⟨7, _⟩ => ⟨S85, .f32⟩
  | .hbm, ⟨8, _⟩ => ⟨S85x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S1x1, .f32⟩
  | .hbm, ⟨13, _⟩ => ⟨S1x128, .f32⟩
  | .hbm, ⟨14, _⟩ => ⟨S1x85, .f32⟩
  | .hbm, ⟨15, _⟩ => ⟨S1x64, .f32⟩
  | .hbm, ⟨16, _⟩ => ⟨S1x1, .f32⟩
  | .hbm, ⟨17, _⟩ => ⟨S131072x1, .f32⟩
  | .local _ .vmem, ⟨0, _⟩ => ⟨S2048x256, .f32⟩
  | .local _ .vmem, ⟨1, _⟩ => ⟨S2048x256, .f32⟩
  | .local _ .vmem, ⟨2, _⟩ => ⟨S256x1, .f32⟩
  | .local _ .vmem, ⟨3, _⟩ => ⟨S1x1, .f32⟩
  | .local _ .vmem, ⟨4, _⟩ => ⟨S256x256, .f32⟩
  | .local _ .vmem, ⟨5, _⟩ => ⟨S256x128, .f32⟩
  | .local _ .vmem, ⟨6, _⟩ => ⟨S1x128, .f32⟩
  | .local _ .vmem, ⟨7, _⟩ => ⟨S128x85, .f32⟩
  | .local _ .vmem, ⟨8, _⟩ => ⟨S1x85, .f32⟩
  | .local _ .vmem, ⟨9, _⟩ => ⟨S85x64, .f32⟩
  | .local _ .vmem, ⟨10, _⟩ => ⟨S1x64, .f32⟩
  | .local _ .vmem, ⟨11, _⟩ => ⟨S64x1, .f32⟩
  | .local _ .vmem, ⟨12, _⟩ => ⟨S1x1, .f32⟩
  | .local _ .vmem, ⟨13, _⟩ => ⟨S2048x1, .f32⟩
  | .local _ .vmem, ⟨14, _⟩ => ⟨S2048x1, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x85 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x85 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S85x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S1_S1x1 : S1.ShapeCasts S1x1
  shapeCasts_S128_S1x128 : S128.ShapeCasts S1x128
  shapeCasts_S85_S1x85 : S85.ShapeCasts S1x85
  shapeCasts_S64_S1x64 : S64.ShapeCasts S1x64
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x85_S128x85_0_0 : ∀ a, (![0, 0] : Fin 2 → Nat) a + S128x85.size a ≤ S128x85.size a
  h_S128x85 : 0 < S128x85.numel
  inb_S1x85_S1x85_0_0 : ∀ a, (![0, 0] : Fin 2 → Nat) a + S1x85.size a ≤ S1x85.size a
  h_S1x85 : 0 < S1x85.numel
  shapeCasts_S1x85_S1x85 : S1x85.ShapeCasts S1x85
  broadcasts_S1x85_S2048x85 : S1x85.Broadcasts S2048x85
  inb_S85x64_S85x64_0_0 : ∀ a, (![0, 0] : Fin 2 → Nat) a + S85x64.size a ≤ S85x64.size a
  h_S85x64 : 0 < S85x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x1_S64x1_0_0 : ∀ a, (![0, 0] : Fin 2 → Nat) a + S64x1.size a ≤ S64x1.size a
  h_S64x1 : 0 < S64x1.numel
  inb_S2048x1_S2048x1_0_0 : ∀ a, (![0, 0] : Fin 2 → Nat) a + S2048x1.size a ≤ S2048x1.size a
  h_S2048x1 : 0 < S2048x1.numel
  dot_S2048x256_S256x1_S2048x1_1_0_0_1_n_n_wf : DotDims.WF S2048x256 S256x1 S2048x1 [1] [0] [0] [1] [] []
  dot_S2048x256_S256x256_S2048x256_1_0_0_1_n_n_wf : DotDims.WF S2048x256 S256x256 S2048x256 [1] [0] [0] [1] [] []
  dot_S2048x256_S256x128_S2048x128_1_0_0_1_n_n_wf : DotDims.WF S2048x256 S256x128 S2048x128 [1] [0] [0] [1] [] []
  dot_S2048x128_S128x85_S2048x85_1_0_0_1_n_n_wf : DotDims.WF S2048x128 S128x85 S2048x85 [1] [0] [0] [1] [] []
  dot_S2048x85_S85x64_S2048x64_1_0_0_1_n_n_wf : DotDims.WF S2048x85 S85x64 S2048x64 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x85.size a ≤ S128x85.size a
  hwx0_6 : ∀ i : grid0.Coords, EltTy.bits .f32 = 32 ∨ (Rect.block (s := S128x85) S128x85.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x85.size a ≤ S1x85.size a
  hwx0_7 : ∀ i : grid0.Coords, EltTy.bits .f32 = 32 ∨ (Rect.block (s := S1x85) S1x85.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S85x64.size a ≤ S85x64.size a
  hwx0_8 : ∀ i : grid0.Coords, EltTy.bits .f32 = 32 ∨ (Rect.block (s := S85x64) S85x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x1.size a ≤ S64x1.size a
  hwx0_10 : ∀ i : grid0.Coords, EltTy.bits .f32 = 32 ∨ (Rect.block (s := S64x1) S64x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x1.size a ≤ S131072x1.size a
  hwx0_12 : ∀ i : grid0.Coords, EltTy.bits .f32 = 32 ∨ (Rect.block (s := S131072x1) S2048x1.size (cc0_transform_12 i) (hinb0_12 i)).WholeWords (EltTy.packing .f32)

variable [Facts₀]

def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x85_S2048x85_1_0_0_1_n_n : DotDims S2048x128 S128x85 S2048x85 where
  lhsContracting := [1]
  rhsContracting := [0]
  lhsNonContracting := [0]
  rhsNonContracting := [1]
  lhsBatch := []
  rhsBatch := []
  wf := dot_S2048x128_S128x85_S2048x85_1_0_0_1_n_n_wf
def dot_S2048x85_S85x64_S2048x64_1_0_0_1_n_n : DotDims S2048x85 S85x64 S2048x64 where
  lhsContracting := [1]
  rhsContracting := [0]
  lhsNonContracting := [0]
  rhsNonContracting := [1]
  lhsBatch := []
  rhsBatch := []
  wf := dot_S2048x85_S85x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x85.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x85.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S85x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S2048x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x1 : Shape := ⟨2, ![256, 1]⟩
abbrev S1 : Shape := ⟨1, ![1]⟩
abbrev S256x256 : Shape := ⟨2, ![256, 256]⟩
abbrev S256x128 : Shape := ⟨2, ![256, 128]⟩
abbrev S128 : Shape := ⟨1, ![128]⟩
abbrev S128x85 : Shape := ⟨2, ![128, 85]⟩
abbrev S85 : Shape := ⟨1, ![85]⟩
abbrev S85x64 : Shape := ⟨2, ![85, 64]⟩
abbrev S64 : Shape := ⟨1, ![64]⟩
abbrev S64x1 : Shape := ⟨2, ![64, 1]⟩
abbrev S131072x1 : Shape := ⟨2, ![131072, 1]⟩
abbrev S1x1 : Shape := ⟨2, ![1, 1]⟩
abbrev S_ : Shape := ⟨0, ![]⟩
abbrev S131072x128 : Shape := ⟨2, ![131072, 128]⟩
abbrev S1x128 : Shape := ⟨2, ![1, 128]⟩
abbrev S131072x85 : Shape := ⟨2, ![131072, 85]⟩
abbrev S1x85 : Shape := ⟨2, ![1, 85]⟩
abbrev S131072x64 : Shape := ⟨2, ![131072, 64]⟩
abbrev S1x64 : Shape := ⟨2, ![1, 64]⟩

abbrev nBuf : Space → Nat
  | .hbm => 59
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256x1, .f32⟩
  | .hbm, ⟨2, _⟩ => ⟨S1, .f32⟩
  | .hbm, ⟨3, _⟩ => ⟨S256x256, .f32⟩
  | .hbm, ⟨4, _⟩ => ⟨S256x128, .f32⟩
  | .hbm, ⟨5, _⟩ => ⟨S128, .f32⟩
  | .hbm, ⟨6, _⟩ => ⟨S128x85, .f32⟩
  | .hbm, ⟨7, _⟩ => ⟨S85, .f32⟩
  | .hbm, ⟨8, _⟩ => ⟨S85x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S131072x1, .f32⟩
  | .hbm, ⟨13, _⟩ => ⟨S1x1, .f32⟩
  | .hbm, ⟨14, _⟩ => ⟨S131072x1, .f32⟩
  | .hbm, ⟨15, _⟩ => ⟨S131072x1, .f32⟩
  | .hbm, ⟨16, _⟩ => ⟨S131072x256, .f32⟩
  | .hbm, ⟨17, _⟩ => ⟨S131072x256, .f32⟩
  | .hbm, ⟨18, _⟩ => ⟨S256x256, .f32⟩
  | .hbm, ⟨19, _⟩ => ⟨S131072x256, .f32⟩
  | .hbm, ⟨20, _⟩ => ⟨S131072x256, .f32⟩
  | .hbm, ⟨21, _⟩ => ⟨S131072x256, .f32⟩
  | .hbm, ⟨22, _⟩ => ⟨S_, .f32⟩
  | .hbm, ⟨23, _⟩ => ⟨S131072x256, .f32⟩
  | .hbm, ⟨24, _⟩ => ⟨S131072x256, .f32⟩
  | .hbm, ⟨25, _⟩ => ⟨S131072x128, .f32⟩
  | .hbm, ⟨26, _⟩ => ⟨S1x128, .f32⟩
  | .hbm, ⟨27, _⟩ => ⟨S131072x128, .f32⟩
  | .hbm, ⟨28, _⟩ => ⟨S131072x128, .f32⟩
  | .hbm, ⟨29, _⟩ => ⟨S_, .f32⟩
  | .hbm, ⟨30, _⟩ => ⟨S131072x128, .f32⟩
  | .hbm, ⟨31, _⟩ => ⟨S131072x128, .f32⟩
  | .hbm, ⟨32, _⟩ => ⟨S131072x85, .f32⟩
  | .hbm, ⟨33, _⟩ => ⟨S1x85, .f32⟩
  | .hbm, ⟨34, _⟩ => ⟨S131072x85, .f32⟩
  | .hbm, ⟨35, _⟩ => ⟨S131072x85, .f32⟩
  | .hbm, ⟨36, _⟩ => ⟨S_, .f32⟩
  | .hbm, ⟨37, _⟩ => ⟨S131072x85, .f32⟩
  | .hbm, ⟨38, _⟩ => ⟨S131072x85, .f32⟩
  | .hbm, ⟨39, _⟩ => ⟨S131072x64, .f32⟩
  | .hbm, ⟨40, _⟩ => ⟨S1x64, .f32⟩
  | .hbm, ⟨41, _⟩ => ⟨S131072x64, .f32⟩
  | .hbm, ⟨42, _⟩ => ⟨S131072x64, .f32⟩
  | .hbm, ⟨43, _⟩ => ⟨S_, .f32⟩
  | .hbm, ⟨44, _⟩ => ⟨S131072x64, .f32⟩
  | .hbm, ⟨45, _⟩ => ⟨S131072x64, .f32⟩
  | .hbm, ⟨46, _⟩ => ⟨S131072x1, .f32⟩
  | .hbm, ⟨47, _⟩ => ⟨S1x1, .f32⟩
  | .hbm, ⟨48, _⟩ => ⟨S131072x1, .f32⟩
  | .hbm, ⟨49, _⟩ => ⟨S131072x1, .f32⟩
  | .hbm, ⟨50, _⟩ => ⟨S131072x1, .f32⟩
  | .hbm, ⟨51, _⟩ => ⟨S131072x1, .f32⟩
  | .hbm, ⟨52, _⟩ => ⟨S131072x1, .f32⟩
  | .hbm, ⟨53, _⟩ => ⟨S_, .f32⟩
  | .hbm, ⟨54, _⟩ => ⟨S131072x1, .f32⟩
  | .hbm, ⟨55, _⟩ => ⟨S131072x1, .f32⟩
  | .hbm, ⟨56, _⟩ => ⟨S_, .f32⟩
  | .hbm, ⟨57, _⟩ => ⟨S131072x1, .f32⟩
  | .hbm, ⟨58, _⟩ => ⟨S131072x1, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_cst : Ref sig .tc := ⟨.hbm, 36, rfl⟩
abbrev main_call1_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call2_cst : Ref sig .tc := ⟨.hbm, 43, rfl⟩
abbrev main_call2_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_0 : Ref sig .tc := ⟨.hbm, 53, rfl⟩
abbrev main_v34 : Ref sig .tc := ⟨.hbm, 54, rfl⟩
abbrev main_v35 : Ref sig .tc := ⟨.hbm, 55, rfl⟩
abbrev main_cst_1 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  bcast_S_S131072x256 : S_.BroadcastsInDim S131072x256 (![] : Fin 0 → Fin S131072x256.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S85_S1x85_1 : S85.BroadcastsInDim S1x85 (![1] : Fin 1 → Fin S1x85.rank)
  bcast_S1x85_S131072x85_0_1 : S1x85.BroadcastsInDim S131072x85 (![0, 1] : Fin 2 → Fin S131072x85.rank)
  bcast_S_S131072x85 : S_.BroadcastsInDim S131072x85 (![] : Fin 0 → Fin S131072x85.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S_S131072x1 : S_.BroadcastsInDim S131072x1 (![] : Fin 0 → Fin S131072x1.rank)
  dot_S131072x256_S256x1_S131072x1_1_0_0_1_n_n_wf : DotDims.WF S131072x256 S256x1 S131072x1 [1] [0] [0] [1] [] []
  dot_S131072x256_S256x256_S131072x256_1_0_0_1_n_n_wf : DotDims.WF S131072x256 S256x256 S131072x256 [1] [0] [0] [1] [] []
  dot_S131072x256_S256x128_S131072x128_1_0_0_1_n_n_wf : DotDims.WF S131072x256 S256x128 S131072x128 [1] [0] [0] [1] [] []
  dot_S131072x128_S128x85_S131072x85_1_0_0_1_n_n_wf : DotDims.WF S131072x128 S128x85 S131072x85 [1] [0] [0] [1] [] []
  dot_S131072x85_S85x64_S131072x64_1_0_0_1_n_n_wf : DotDims.WF S131072x85 S85x64 S131072x64 [1] [0] [0] [1] [] []
  dot_S131072x64_S64x1_S131072x1_1_0_0_1_n_n_wf : DotDims.WF S131072x64 S64x1 S131072x1 [1] [0] [0] [1] [] []

variable [Facts₀]

def dot_S131072x256_S256x1_S131072x1_1_0_0_1_n_n : DotDims S131072x256 S256x1 S131072x1 where
  lhsContracting := [1]
  rhsContracting := [0]
  lhsNonContracting := [0]
  rhsNonContracting := [1]
  lhsBatch := []
  rhsBatch := []
  wf := dot_S131072x256_S256x1_S131072x1_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x128_S128x85_S131072x85_1_0_0_1_n_n : DotDims S131072x128 S128x85 S131072x85 where
  lhsContracting := [1]
  rhsContracting := [0]
  lhsNonContracting := [0]
  rhsNonContracting := [1]
  lhsBatch := []
  rhsBatch := []
  wf := dot_S131072x128_S128x85_S131072x85_1_0_0_1_n_n_wf
def dot_S131072x85_S85x64_S131072x64_1_0_0_1_n_n : DotDims S131072x85 S85x64 S131072x64 where
  lhsContracting := [1]
  rhsContracting := [0]
  lhsNonContracting := [0]
  rhsNonContracting := [1]
  lhsBatch := []
  rhsBatch := []
  wf := dot_S131072x85_S85x64_S131072x64_1_0_0_1_n_n_wf
def dot_S131072x64_S64x1_S131072x1_1_0_0_1_n_n : DotDims S131072x64 S64x1 S131072x1 where
  lhsContracting := [1]
  rhsContracting := [0]
  lhsNonContracting := [0]
  rhsNonContracting := [1]
  lhsBatch := []
  rhsBatch := []
  wf := dot_S131072x64_S64x1_S131072x1_1_0_0_1_n_n_wf

class Facts : Prop extends Facts₀ where

variable [Facts]
-- ==== Proof.LibPlainDot.lean ====
/-
  A plain two-dimensional contraction read at an index.

  For dimension numbers that contract the left operand's second axis with the right operand's first
  axis, with no batch axis (an `[A, K]` array times a `[K, B]` array), the contraction's sum over the
  one-axis contraction index is the textbook sum over `k : Fin K` of `l (r, k) * r (k, c)` at the
  result index `(r, c)`. Stated once for the library's `DotDims.plain A K B`, generic in the three
  extents; a program's own record with the same six lists equals `DotDims.plain` (proof fields are
  irrelevant), so the statement transports to it by `rfl`.
-/
import Idealize.ShloMosaic.Lib.ValueIdx
import Idealize.ShloMosaic.PureOps.Ideal.Laws
import Idealize.ShloMosaic.Lib.Pipeline.Value

noncomputable section

namespace Idealize.ShloMosaic.PlainDot

open Idealize.ShloMosaic Idealize.ShloMosaic.ValueIdx

variable {A K B : Nat}

/-- The left operand's index at result index `j` and contraction index `q`: row of `j`, column `q`. -/
theorem lhsIdx_plain (j : (⟨2, ![A, B]⟩ : Shape).Idx) (k : Fin K) :
    (DotDims.plain A K B).lhsIdx j ((contrEquiv1 (DotDims.plain A K B) K rfl rfl).symm k) = ix2 (j 0) k := by
  funext a
  apply Fin.ext
  have hk := contrEquiv1_symm_val (DotDims.plain A K B) K rfl rfl k
  match a with
  | ⟨0, _⟩ => rfl
  | ⟨1, _⟩ => exact hk

/-- The right operand's index at result index `j` and contraction index `q`: row `q`, column of `j`. -/
theorem rhsIdx_plain (j : (⟨2, ![A, B]⟩ : Shape).Idx) (k : Fin K) :
    (DotDims.plain A K B).rhsIdx j ((contrEquiv1 (DotDims.plain A K B) K rfl rfl).symm k) = ix2 k (j 1) := by
  funext a
  apply Fin.ext
  have hk := contrEquiv1_symm_val (DotDims.plain A K B) K rfl rfl k
  match a with
  | ⟨0, _⟩ => exact hk
  | ⟨1, _⟩ => rfl

/-- The contraction's sum, re-indexed by the contracted axis' coordinate. -/
theorem sum_plain {M : Type*} [AddCommMonoid M] (f : (⟨2, ![A, K]⟩ : Shape).Idx → (⟨2, ![K, B]⟩ : Shape).Idx → M)
    (j : (⟨2, ![A, B]⟩ : Shape).Idx) :
    ∑ q : (DotDims.plain A K B).contr.Idx, f ((DotDims.plain A K B).lhsIdx j q) ((DotDims.plain A K B).rhsIdx j q)
      = ∑ k : Fin K, f (ix2 (j 0) k) (ix2 k (j 1)) := by
  rw [← Equiv.sum_comp (contrEquiv1 (DotDims.plain A K B) K rfl rfl).symm]
  exact Finset.sum_congr rfl fun k _ => congrArg₂ f (lhsIdx_plain j k) (rhsIdx_plain j k)

/-- A kernel's matrix product into a zero accumulator, at the exact instance: the sum over the contracted axis. -/
theorem matmul_zero_plain {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    FloatOps.matmul (DotDims.plain A K B) prec l r (constant ⟨2, ![A, B]⟩ .f32 0x00000000#32) j
      = ∑ k : Fin K, l (ix2 (j 0) k) * r (ix2 k (j 1)) := by
  rw [Ideal.matmul_constant_zero_apply]
  exact sum_plain (fun a b => l a * r b) j

/-- The host's `dot_general` with the same dimension numbers, at the exact instance: the same sum. -/
theorem dotGeneral_plain {φ₁ φ₂ : FTy} (prec : Option ContractPrecision) (sched : HostSchedule)
    (l : FVec Ideal ⟨2, ![A, K]⟩ φ₁) (r : FVec Ideal ⟨2, ![K, B]⟩ φ₂) (j : (⟨2, ![A, B]⟩ : Shape).Idx) :
    FloatOps.dotGeneral (DotDims.plain A K B) prec sched l r j
      = ∑ k : Fin K, l (ix2 (j 0) k) * r (ix2 k (j 1)) := by
  rw [Ideal.dotGeneral_apply]
  exact sum_plain (fun a b => l a * r b) j

/-! ## A row times a matrix, and the two programs' products read at a row -/

/-- The product of a row `h` with column `j` of a `[K, B]` matrix. -/
def rowDot (h : Fin K → EReal) (w : (⟨2, ![K, B]⟩ : Shape).Idx → EReal) (j : Fin B) : EReal :=
  ∑ k : Fin K, h k * w (ix2 k j)

/-- A kernel's matrix product of two narrowed operands into a zero accumulator, whatever record spells the plain
    dimension numbers: entry `(p, j)` is row `p` of the left operand times column `j` of the right one (a change
    of float format is the identity on extended reals). -/
theorem matmul_row {φ₁ φ₂ ψ₁ ψ₂ : FTy} (D : DotDims ⟨2, ![A, K]⟩ ⟨2, ![K, B]⟩ ⟨2, ![A, B]⟩) (hD : D = DotDims.plain A K B)
    (prec : Option ContractPrecision) (l : FVec Ideal ⟨2, ![A, K]⟩ φ₁) (r : FVec Ideal ⟨2, ![K, B]⟩ φ₂)
    (hl : ψ₁.bits < φ₁.bits) (hr : ψ₂.bits < φ₂.bits) (p : Fin A) (j : Fin B) :
    matmul D prec (truncf ψ₁ l hl) (truncf ψ₂ r hr) (constant ⟨2, ![A, B]⟩ .f32 0x00000000#32) (ix2 p j)
      = rowDot (fun k => l (ix2 p k)) r j := by
  subst hD
  exact matmul_zero_plain prec _ _ (ix2 p j)

/-- The host's `dot_general` with plain dimension numbers: the same row-by-column product. -/
theorem dotGeneral_row {φ₁ φ₂ : FTy} (D : DotDims ⟨2, ![A, K]⟩ ⟨2, ![K, B]⟩ ⟨2, ![A, B]⟩) (hD : D = DotDims.plain A K B)
    (prec : Option ContractPrecision) (l : FVec Ideal ⟨2, ![A, K]⟩ φ₁) (r : FVec Ideal ⟨2, ![K, B]⟩ φ₂) (p : Fin A) (j : Fin B) :
    Host.dotGeneral D prec l r (ix2 p j) = rowDot (fun k => l (ix2 p k)) r j := by
  subst hD
  exact dotGeneral_plain prec .single _ _ (ix2 p j)

/-! ## A bias row broadcast over the rows -/

/-- A kernel's `vector.broadcast` of a `[1, B]` row to `[A, B]`: every row reads the one row. -/
theorem broadcastTo_row {α : Type} (x : (⟨2, ![1, B]⟩ : Shape).Idx → α)
    (h : (⟨2, ![1, B]⟩ : Shape).Broadcasts ⟨2, ![A, B]⟩) (p : Fin A) (j : Fin B) :
    broadcastTo ⟨2, ![A, B]⟩ x h (ix2 p j) = x (ix2 0 j) := by
  refine broadcastTo_apply x h (ix2 p j) (ix2 0 j) fun a => ?_
  match a with
  | ⟨0, _⟩ => show (0 : Nat) = if (1 : Nat) = 1 then 0 else _; rw [if_pos rfl]
  | ⟨1, _⟩ =>
    show j.val = if B = 1 then 0 else j.val
    split_ifs with hB
    · subst hB; exact Nat.lt_one_iff.mp j.isLt
    · rfl

/-- The host's two `broadcast_in_dim`s that take a `[B]` vector to a `[1, B]` row and the row to `[A, B]`:
    entry `(p, j)` reads entry `j` of the vector. -/
theorem broadcastInDim_row {α : Type} (x : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (p : Fin A) (j : Fin B) :
    broadcastInDim ⟨2, ![A, B]⟩ ![0, 1] h2 (broadcastInDim ⟨2, ![1, B]⟩ ![1] h1 x) (ix2 p j) = x (ix1 j) := by
  rw [broadcastInDim_apply ![0, 1] h2 _ (ix2 p j) (ix2 0 j) (fun a => by
    match a with
    | ⟨0, _⟩ => show (0 : Nat) = if (1 : Nat) = 1 then 0 else _; rw [if_pos rfl]
    | ⟨1, _⟩ =>
      show j.val = if B = 1 then 0 else j.val
      split_ifs with hB
      · subst hB; exact Nat.lt_one_iff.mp j.isLt
      · rfl)]
  exact broadcastInDim_apply ![1] h1 x (ix2 0 j) (ix1 j) (fun a => by
    match a with
    | ⟨0, _⟩ =>
      show j.val = if B = 1 then 0 else j.val
      split_ifs with hB
      · subst hB; exact Nat.lt_one_iff.mp j.isLt
      · rfl)

/-- A `[B]` vector recast as a `[1, B]` row reads its entry `j` at `(0, j)`. -/
theorem shapeCast_row {α : Type} (x : (⟨1, ![B]⟩ : Shape).Idx → α)
    (h : (⟨1, ![B]⟩ : Shape).ShapeCasts ⟨2, ![1, B]⟩) (j : Fin B) :
    shapeCast ⟨2, ![1, B]⟩ x h (ix2 0 j) = x (ix1 j) := by
  refine shapeCast_apply x h (ix2 0 j) (ix1 j) ?_
  rw [Shape.rowMajor_val_one, Shape.rowMajor_val_two]
  show j.val = 0 * B + j.val
  omega

/-! ## A dense layer read at a row: the kernel's block form and the host's whole-array form -/

/-- A row through a dense layer: the row-by-matrix product plus the bias entry. -/
def dense (h : Fin K → EReal) (w : (⟨2, ![K, B]⟩ : Shape).Idx → EReal) (b : Fin B → EReal) (j : Fin B) : EReal :=
  rowDot h w j + b j

/-- The same followed by the maximum with zero (the word `0x00000000`). -/
def denseRelu (h : Fin K → EReal) (w : (⟨2, ![K, B]⟩ : Shape).Idx → EReal) (b : Fin B → EReal) (j : Fin B) : EReal :=
  max (dense h w b j) (Ideal.ofBits .f32 0x00000000#32)

/-- The kernel's layer on a block of rows — narrowed operands multiplied into a zero accumulator, a `[1, B]` bias row
    recast to itself and broadcast over the rows, added — at entry `(p, j)` is row `p` through the layer. -/
theorem dense_block {φ₁ φ₂ ψ₁ ψ₂ : FTy} (D : DotDims ⟨2, ![A, K]⟩ ⟨2, ![K, B]⟩ ⟨2, ![A, B]⟩) (hD : D = DotDims.plain A K B)
    (prec : Option ContractPrecision) (h : FVec Ideal ⟨2, ![A, K]⟩ φ₁) (w : FVec Ideal ⟨2, ![K, B]⟩ φ₂)
    (b : FVec Ideal ⟨2, ![1, B]⟩ .f32) (hl : ψ₁.bits < φ₁.bits) (hr : ψ₂.bits < φ₂.bits)
    (hsc : (⟨2, ![1, B]⟩ : Shape).ShapeCasts ⟨2, ![1, B]⟩) (hbc : (⟨2, ![1, B]⟩ : Shape).Broadcasts ⟨2, ![A, B]⟩)
    (p : Fin A) (j : Fin B) :
    addf (matmul D prec (truncf ψ₁ h hl) (truncf ψ₂ w hr) (constant ⟨2, ![A, B]⟩ .f32 0x00000000#32))
        (broadcastTo ⟨2, ![A, B]⟩ (shapeCast ⟨2, ![1, B]⟩ b hsc) hbc) (ix2 p j)
      = dense (fun k => h (ix2 p k)) w (fun j => b (ix2 0 j)) j := by
  show matmul D prec (truncf ψ₁ h hl) (truncf ψ₂ w hr) (constant ⟨2, ![A, B]⟩ .f32 0x00000000#32) (ix2 p j)
      + broadcastTo ⟨2, ![A, B]⟩ (shapeCast ⟨2, ![1, B]⟩ b hsc) hbc (ix2 p j) = _
  rw [matmul_row D hD, shapeCast_self, broadcastTo_row]
  rfl

/-- … and with the maximum against the splat of zero. -/
theorem denseRelu_block {φ₁ φ₂ ψ₁ ψ₂ : FTy} (D : DotDims ⟨2, ![A, K]⟩ ⟨2, ![K, B]⟩ ⟨2, ![A, B]⟩) (hD : D = DotDims.plain A K B)
    (prec : Option ContractPrecision) (h : FVec Ideal ⟨2, ![A, K]⟩ φ₁) (w : FVec Ideal ⟨2, ![K, B]⟩ φ₂)
    (b : FVec Ideal ⟨2, ![1, B]⟩ .f32) (hl : ψ₁.bits < φ₁.bits) (hr : ψ₂.bits < φ₂.bits)
    (hsc : (⟨2, ![1, B]⟩ : Shape).ShapeCasts ⟨2, ![1, B]⟩) (hbc : (⟨2, ![1, B]⟩ : Shape).Broadcasts ⟨2, ![A, B]⟩)
    (p : Fin A) (j : Fin B) :
    maximumf (addf (matmul D prec (truncf ψ₁ h hl) (truncf ψ₂ w hr) (constant ⟨2, ![A, B]⟩ .f32 0x00000000#32))
        (broadcastTo ⟨2, ![A, B]⟩ (shapeCast ⟨2, ![1, B]⟩ b hsc) hbc))
        (broadcast ⟨2, ![A, B]⟩ (Scalar.ofBits (F := Ideal) .f32 0x00000000#32)) (ix2 p j)
      = denseRelu (fun k => h (ix2 p k)) w (fun j => b (ix2 0 j)) j :=
  congrArg (fun z => max z (Ideal.ofBits .f32 0x00000000#32)) (dense_block D hD prec h w b hl hr hsc hbc p j)

/-- The host's layer on the whole array — `dot_general`, the `[B]` bias taken through `[1, B]` to `[A, B]`, added —
    at entry `(p, j)` is row `p` through the layer. -/
theorem dense_host {φ₁ φ₂ : FTy} (D : DotDims ⟨2, ![A, K]⟩ ⟨2, ![K, B]⟩ ⟨2, ![A, B]⟩) (hD : D = DotDims.plain A K B)
    (prec : Option ContractPrecision) (h : FVec Ideal ⟨2, ![A, K]⟩ φ₁) (w : FVec Ideal ⟨2, ![K, B]⟩ φ₂)
    (b : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1]) (p : Fin A) (j : Fin B) :
    addf (Host.dotGeneral D prec h w)
        (broadcastInDim ⟨2, ![A, B]⟩ ![0, 1] h2 (broadcastInDim ⟨2, ![1, B]⟩ ![1] h1 b)) (ix2 p j)
      = dense (fun k => h (ix2 p k)) w (fun j => b (ix1 j)) j := by
  show Host.dotGeneral D prec h w (ix2 p j)
      + broadcastInDim ⟨2, ![A, B]⟩ ![0, 1] h2 (broadcastInDim ⟨2, ![1, B]⟩ ![1] h1 b) (ix2 p j) = _
  rw [dotGeneral_row D hD, broadcastInDim_row]
  rfl

/-- … and with the maximum against the broadcast of the scalar zero. -/
theorem denseRelu_host {φ₁ φ₂ : FTy} (D : DotDims ⟨2, ![A, K]⟩ ⟨2, ![K, B]⟩ ⟨2, ![A, B]⟩) (hD : D = DotDims.plain A K B)
    (prec : Option ContractPrecision) (h : FVec Ideal ⟨2, ![A, K]⟩ φ₁) (w : FVec Ideal ⟨2, ![K, B]⟩ φ₂)
    (b : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1])
    (h0 : (⟨0, ![]⟩ : Shape).BroadcastsInDim ⟨2, ![A, B]⟩ ![]) (p : Fin A) (j : Fin B) :
    maximumf (addf (Host.dotGeneral D prec h w)
        (broadcastInDim ⟨2, ![A, B]⟩ ![0, 1] h2 (broadcastInDim ⟨2, ![1, B]⟩ ![1] h1 b)))
        (broadcastInDim ⟨2, ![A, B]⟩ ![] h0 (constant (F := Ideal) ⟨0, ![]⟩ .f32 0x00000000#32)) (ix2 p j)
      = denseRelu (fun k => h (ix2 p k)) w (fun j => b (ix1 j)) j :=
  congrArg (fun z => max z (Ideal.ofBits .f32 0x00000000#32)) (dense_host D hD prec h w b h1 h2 p j)

end Idealize.ShloMosaic.PlainDot

end
-- ==== Proof.RowSpec.lean ====
/-
  The network as a function of ONE row of `x`.

  Both programs compute, for every row `r` of the batch, the same number from row `r` of `x` and the
  weights: a linear term `x_r · w_wide + b_wide`; the bi-interaction pooling
  `0.5 · ((x_r V)² + (x_r²)(V²))` (256 entries); three dense layers with bias and maximum with zero
  (256 → 128 → 85 → 64); an output layer (64 → 1) with bias; and the logistic function of the sum of
  the linear term and the output layer. `rowOut` is that number, written over the extended reals with
  the row as a function `Fin 256 → EReal`, the matrices as their index functions and the biases as
  functions of the column.
-/
import proofs.«146849_j81140522156065_1_alg».proof.Proof.LibPlainDot
import Idealize.ShloMosaic.Lib.IdealHost

noncomputable section

namespace Cert.Nfm

open Idealize.ShloMosaic Idealize.ShloMosaic.ValueIdx Idealize.ShloMosaic.PlainDot

/-- The bi-interaction pooling of a row: `0.5 · ((x V)_j² + (x² V²)_j)`, the factor the word `0x3F000000`. -/
def pooled (xr : Fin 256 → EReal) (V : (⟨2, ![256, 256]⟩ : Shape).Idx → EReal) (j : Fin 256) : EReal :=
  Ideal.ofBits .f32 0x3F000000#32
    * (rowDot xr V j * rowDot xr V j + rowDot (fun k => xr k * xr k) (fun i => V i * V i) j)

/-- The deep tower's last hidden row (64 entries): three dense layers with bias and maximum with zero over the pooling. -/
def tower (xr : Fin 256 → EReal) (V : (⟨2, ![256, 256]⟩ : Shape).Idx → EReal)
    (w1 : (⟨2, ![256, 128]⟩ : Shape).Idx → EReal) (b1 : Fin 128 → EReal)
    (w2 : (⟨2, ![128, 85]⟩ : Shape).Idx → EReal) (b2 : Fin 85 → EReal)
    (w3 : (⟨2, ![85, 64]⟩ : Shape).Idx → EReal) (b3 : Fin 64 → EReal) : Fin 64 → EReal :=
  denseRelu (denseRelu (denseRelu (pooled xr V) w1 b1) w2 b2) w3 b3

/-- The argument of the logistic function: the linear term plus the output layer over the tower. -/
def logit (xr : Fin 256 → EReal) (ww : (⟨2, ![256, 1]⟩ : Shape).Idx → EReal) (bw : Fin 1 → EReal)
    (V : (⟨2, ![256, 256]⟩ : Shape).Idx → EReal)
    (w1 : (⟨2, ![256, 128]⟩ : Shape).Idx → EReal) (b1 : Fin 128 → EReal)
    (w2 : (⟨2, ![128, 85]⟩ : Shape).Idx → EReal) (b2 : Fin 85 → EReal)
    (w3 : (⟨2, ![85, 64]⟩ : Shape).Idx → EReal) (b3 : Fin 64 → EReal)
    (wo : (⟨2, ![64, 1]⟩ : Shape).Idx → EReal) (bo : Fin 1 → EReal) (q : Fin 1) : EReal :=
  dense xr ww bw q + dense (tower xr V w1 b1 w2 b2 w3 b3) wo bo q

/-- The network's output for one row. -/
def rowOut (xr : Fin 256 → EReal) (ww : (⟨2, ![256, 1]⟩ : Shape).Idx → EReal) (bw : Fin 1 → EReal)
    (V : (⟨2, ![256, 256]⟩ : Shape).Idx → EReal)
    (w1 : (⟨2, ![256, 128]⟩ : Shape).Idx → EReal) (b1 : Fin 128 → EReal)
    (w2 : (⟨2, ![128, 85]⟩ : Shape).Idx → EReal) (b2 : Fin 85 → EReal)
    (w3 : (⟨2, ![85, 64]⟩ : Shape).Idx → EReal) (b3 : Fin 64 → EReal)
    (wo : (⟨2, ![64, 1]⟩ : Shape).Idx → EReal) (bo : Fin 1 → EReal) (q : Fin 1) : EReal :=
  Ideal.logistic (logit xr ww bw V w1 b1 w2 b2 w3 b3 wo bo q)

/-- A rank-1 array as a function of its one coordinate. -/
abbrev vec {n : Nat} (b : (⟨1, ![n]⟩ : Shape).Idx → EReal) : Fin n → EReal := fun j => b (ix1 j)

/-- THE RESULT ARRAY both programs end with: entry `(r, q)` is the network's output for row `r` of `x`. -/
def netArray (X : (⟨2, ![131072, 256]⟩ : Shape).Idx → EReal) (WW : (⟨2, ![256, 1]⟩ : Shape).Idx → EReal)
    (BW : (⟨1, ![1]⟩ : Shape).Idx → EReal) (V : (⟨2, ![256, 256]⟩ : Shape).Idx → EReal)
    (W1 : (⟨2, ![256, 128]⟩ : Shape).Idx → EReal) (B1 : (⟨1, ![128]⟩ : Shape).Idx → EReal)
    (W2 : (⟨2, ![128, 85]⟩ : Shape).Idx → EReal) (B2 : (⟨1, ![85]⟩ : Shape).Idx → EReal)
    (W3 : (⟨2, ![85, 64]⟩ : Shape).Idx → EReal) (B3 : (⟨1, ![64]⟩ : Shape).Idx → EReal)
    (WO : (⟨2, ![64, 1]⟩ : Shape).Idx → EReal) (BO : (⟨1, ![1]⟩ : Shape).Idx → EReal) :
    (⟨2, ![131072, 1]⟩ : Shape).Idx → EReal :=
  fun i => rowOut (fun k => X (ix2 (i 0) k)) WW (vec BW) V W1 (vec B1) W2 (vec B2) W3 (vec B3) WO (vec BO) (i 1)

/-- The logistic function spelt as the quotient `1 / (1 + e^(-z))` with the ones as the word `0x3F800000`: on the
    extended reals it IS the logistic function, at the infinities too. -/
theorem div_one_add_exp_neg (z : EReal) :
    Ideal.div (Ideal.ofBits .f32 0x3F800000#32) (Ideal.ofBits .f32 0x3F800000#32 + Ideal.exp (-z)) = Ideal.logistic z := by
  rw [Ideal.ofBits_one_f32]
  rfl

end Cert.Nfm

end
-- ==== Proof.KernelRow.lean ====
/-
  The kernel's body, row by row.

  The body's one store writes the logistic function of the sum of two `[2048, 1]` columns: the linear term of the
  block of `x`, and the output layer over three hidden layers over the pooled features of the block. Each
  intermediate block of rows is named here as the body computes it (`poolBlock`, `hid1Block`, …: narrowed operands
  multiplied into zero accumulators, bias rows broadcast over the rows, maxima with zero) and read at an entry
  `(p, j)` as the corresponding stage of the network on row `p` of the block (RowSpec.lean). The stored payload is
  then the network's output for row `p`: `payload_row`.
-/
import proofs.«146849_j81140522156065_1_alg».proof.Proof.Gen.KernelIdeal.Skeleton
import proofs.«146849_j81140522156065_1_alg».proof.Proof.RowSpec

noncomputable section

namespace Cert.Nfm.Kern

open Cert.KernelIdeal Cert.KernelIdeal.Gen
open Idealize.ShloMosaic Idealize.ShloMosaic.ValueIdx Idealize.ShloMosaic.PlainDot Cert.Nfm

variable (x0 : FVec Ideal S2048x256 .f32) (x1 : FVec Ideal S256x1 .f32) (x2 : FVec Ideal S1x1 .f32)
  (x3 : FVec Ideal S256x256 .f32) (x4 : FVec Ideal S256x128 .f32) (x5 : FVec Ideal S1x128 .f32)
  (x6 : FVec Ideal S128x85 .f32) (x7 : FVec Ideal S1x85 .f32) (x8 : FVec Ideal S85x64 .f32)
  (x9 : FVec Ideal S1x64 .f32) (x10 : FVec Ideal S64x1 .f32) (x11 : FVec Ideal S1x1 .f32)

/-- Row `p` of the block of `x`. -/
abbrev brow (p : Fin 2048) : Fin 256 → EReal := fun k => x0 (ix2 p k)

/-- A `[1, n]` bias row as a function of the column. -/
abbrev bias {n : Nat} (b : (⟨2, ![1, n]⟩ : Shape).Idx → EReal) : Fin n → EReal := fun j => b (ix2 0 j)

/-- The pooled features of the block: `0.5 · ((x V)² + (x²)(V²))`, as the body computes them. -/
def poolBlock : FVec Ideal S2048x256 .f32 :=
  mulf (broadcast S2048x256 (Scalar.ofBits (F := Ideal) .f32 0x3F000000#32))
    (addf
      (mulf (matmul dot_S2048x256_S256x256_S2048x256_1_0_0_1_n_n none (truncf .bf16 x0 Gen.bitsLt_bf16_f32) (truncf .bf16 x3 Gen.bitsLt_bf16_f32) (constant S2048x256 .f32 0x00000000#32))
        (matmul dot_S2048x256_S256x256_S2048x256_1_0_0_1_n_n none (truncf .bf16 x0 Gen.bitsLt_bf16_f32) (truncf .bf16 x3 Gen.bitsLt_bf16_f32) (constant S2048x256 .f32 0x00000000#32)))
      (matmul dot_S2048x256_S256x256_S2048x256_1_0_0_1_n_n none (truncf .bf16 (mulf x0 x0) Gen.bitsLt_bf16_f32) (truncf .bf16 (mulf x3 x3) Gen.bitsLt_bf16_f32) (constant S2048x256 .f32 0x00000000#32)))

theorem poolBlock_row (p : Fin 2048) (j : Fin 256) : poolBlock x0 x3 (ix2 p j) = pooled (brow x0 p) x3 j :=
  have h1 := matmul_row dot_S2048x256_S256x256_S2048x256_1_0_0_1_n_n rfl none x0 x3 Gen.bitsLt_bf16_f32 Gen.bitsLt_bf16_f32 p j
  have h2 := matmul_row dot_S2048x256_S256x256_S2048x256_1_0_0_1_n_n rfl none (mulf x0 x0) (mulf x3 x3) Gen.bitsLt_bf16_f32 Gen.bitsLt_bf16_f32 p j
  congrArg (fun z => Ideal.ofBits .f32 0x3F000000#32 * z) (congrArg₂ (· + ·) (congrArg₂ (· * ·) h1 h1) h2)

/-- The first hidden layer on the block. -/
def hid1Block : FVec Ideal S2048x128 .f32 :=
  maximumf (addf (matmul dot_S2048x256_S256x128_S2048x128_1_0_0_1_n_n none (truncf .bf16 (poolBlock x0 x3) Gen.bitsLt_bf16_f32) (truncf .bf16 x4 Gen.bitsLt_bf16_f32) (constant S2048x128 .f32 0x00000000#32))
      (broadcastTo S2048x128 (shapeCast S1x128 x5 Gen.shapeCasts_S1x128_S1x128) Gen.broadcasts_S1x128_S2048x128))
    (broadcast S2048x128 (Scalar.ofBits (F := Ideal) .f32 0x00000000#32))

theorem hid1Block_row (p : Fin 2048) (j : Fin 128) :
    hid1Block x0 x3 x4 x5 (ix2 p j) = denseRelu (pooled (brow x0 p) x3) x4 (bias x5) j :=
  (denseRelu_block dot_S2048x256_S256x128_S2048x128_1_0_0_1_n_n rfl none (poolBlock x0 x3) x4 x5 Gen.bitsLt_bf16_f32 Gen.bitsLt_bf16_f32
      Gen.shapeCasts_S1x128_S1x128 Gen.broadcasts_S1x128_S2048x128 p j).trans
    (congrArg (fun h => denseRelu h x4 (bias x5) j) (funext fun k => poolBlock_row x0 x3 p k))

/-- The second hidden layer on the block. -/
def hid2Block : FVec Ideal S2048x85 .f32 :=
  maximumf (addf (matmul dot_S2048x128_S128x85_S2048x85_1_0_0_1_n_n none (truncf .bf16 (hid1Block x0 x3 x4 x5) Gen.bitsLt_bf16_f32) (truncf .bf16 x6 Gen.bitsLt_bf16_f32) (constant S2048x85 .f32 0x00000000#32))
      (broadcastTo S2048x85 (shapeCast S1x85 x7 Gen.shapeCasts_S1x85_S1x85) Gen.broadcasts_S1x85_S2048x85))
    (broadcast S2048x85 (Scalar.ofBits (F := Ideal) .f32 0x00000000#32))

theorem hid2Block_row (p : Fin 2048) (j : Fin 85) :
    hid2Block x0 x3 x4 x5 x6 x7 (ix2 p j)
      = denseRelu (denseRelu (pooled (brow x0 p) x3) x4 (bias x5)) x6 (bias x7) j :=
  (denseRelu_block dot_S2048x128_S128x85_S2048x85_1_0_0_1_n_n rfl none (hid1Block x0 x3 x4 x5) x6 x7 Gen.bitsLt_bf16_f32 Gen.bitsLt_bf16_f32
      Gen.shapeCasts_S1x85_S1x85 Gen.broadcasts_S1x85_S2048x85 p j).trans
    (congrArg (fun h => denseRelu h x6 (bias x7) j) (funext fun k => hid1Block_row x0 x3 x4 x5 p k))

/-- The third hidden layer on the block: the tower's output rows. -/
def hid3Block : FVec Ideal S2048x64 .f32 :=
  maximumf (addf (matmul dot_S2048x85_S85x64_S2048x64_1_0_0_1_n_n none (truncf .bf16 (hid2Block x0 x3 x4 x5 x6 x7) Gen.bitsLt_bf16_f32) (truncf .bf16 x8 Gen.bitsLt_bf16_f32) (constant S2048x64 .f32 0x00000000#32))
      (broadcastTo S2048x64 (shapeCast S1x64 x9 Gen.shapeCasts_S1x64_S1x64) Gen.broadcasts_S1x64_S2048x64))
    (broadcast S2048x64 (Scalar.ofBits (F := Ideal) .f32 0x00000000#32))

theorem hid3Block_row (p : Fin 2048) (j : Fin 64) :
    hid3Block x0 x3 x4 x5 x6 x7 x8 x9 (ix2 p j)
      = tower (brow x0 p) x3 x4 (bias x5) x6 (bias x7) x8 (bias x9) j :=
  (denseRelu_block dot_S2048x85_S85x64_S2048x64_1_0_0_1_n_n rfl none (hid2Block x0 x3 x4 x5 x6 x7) x8 x9 Gen.bitsLt_bf16_f32 Gen.bitsLt_bf16_f32
      Gen.shapeCasts_S1x64_S1x64 Gen.broadcasts_S1x64_S2048x64 p j).trans
    (congrArg (fun h => denseRelu h x8 (bias x9) j) (funext fun k => hid2Block_row x0 x3 x4 x5 x6 x7 p k))

/-- THE STORED PAYLOAD at entry `(p, q)` of the output block is the network's output for row `p` of the block of `x`. -/
theorem payload_row (p : Fin 2048) (q : Fin 1) :
    k0_pay1 (F := Ideal) (k0_pay3 (F := Ideal) x0 x1 x2) (k0_pay4 (F := Ideal) x0 x3 x4 x5 x6) x7 x8 x9 x10 x11 (ix2 p q)
      = rowOut (brow x0 p) x1 (bias x2) x3 x4 (bias x5) x6 (bias x7) x8 (bias x9) x10 (bias x11) q :=
  have hlin := dense_block dot_S2048x256_S256x1_S2048x1_1_0_0_1_n_n rfl none x0 x1 x2 Gen.bitsLt_bf16_f32 Gen.bitsLt_bf16_f32
    Gen.shapeCasts_S1x1_S1x1 Gen.broadcasts_S1x1_S2048x1 p q
  have hdeep := (dense_block dot_S2048x64_S64x1_S2048x1_1_0_0_1_n_n rfl none (hid3Block x0 x3 x4 x5 x6 x7 x8 x9) x10 x11 Gen.bitsLt_bf16_f32 Gen.bitsLt_bf16_f32
      Gen.shapeCasts_S1x1_S1x1 Gen.broadcasts_S1x1_S2048x1 p q).trans
    (congrArg (fun h => dense h x10 (bias x11) q) (funext fun k => hid3Block_row x0 x3 x4 x5 x6 x7 x8 x9 p k))
  congrArg Ideal.logistic (congrArg₂ (· + ·) hlin hdeep)

end Cert.Nfm.Kern

end
-- ==== Proof.KernelArray.lean ====
/-
  From the blocks to the array.

  The grid has 64 points; point `t` stages rows `2048 t … 2048 t + 2047` of `x`, every weight and bias whole, and
  writes back rows `2048 t … 2048 t + 2047` of the result. Each input window's block is read here as rows of its
  argument array (a bias window through the host's reshape of the bias to a `[1, n]` row), the block a point writes
  back is the corresponding block of the network applied to every row (`netArray`, by `payload_row`), the 64 blocks
  cover the result array, and so the array ends holding `netArray` of the arguments: `run`.
-/
import proofs.«146849_j81140522156065_1_alg».proof.Proof.Gen.KernelIdeal.Value
import proofs.«146849_j81140522156065_1_alg».proof.Proof.KernelRow
import Idealize.ShloMosaic.Lib.StableHlo.Run
import Idealize.ShloMosaic.Lib.Pipeline.Value
import Idealize.ShloMosaic.Lib.Tactic

noncomputable section

namespace Cert.Nfm.Arr

open Cert.KernelIdeal Cert.KernelIdeal.Gen Cert.KernelIdeal.Value
open Idealize.ShloMosaic Idealize.ShloMosaic.TcCoe Idealize.SL.Sem Idealize.ShloMosaic.StableHlo
open Idealize.ShloMosaic.ValueIdx Idealize.ShloMosaic.PlainDot Cert.Nfm Cert.Nfm.Kern
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The input windows' blocks as rows of the arguments -/

/-- On each axis the array coordinate of a block's entry is `block index × block size + 1 × the coordinate inside the
    block`; where both block indices are zero the array index is the inner index. -/
theorem idx_of_origin {n : Fin 2 → ℕ} {e y : (a : Fin 2) → Fin (n a)} {i0 i1 s0 s1 : ℕ} (hi0 : i0 = 0) (hi1 : i1 = 0)
    (h0 : (e 0 : ℕ) = i0 * s0 + 1 * (y 0 : ℕ)) (h1 : (e 1 : ℕ) = i1 * s1 + 1 * (y 1 : ℕ)) : e = y := by
  subst hi0 hi1
  exact Shape.idx_ext₂ (by omega) (by omega)

/-- The row of the batch that row `p` of point `t`'s block is. -/
def rowOf (t : Fin cfg0.N) (p : Fin 2048) : Fin 131072 :=
  ⟨t.val * 2048 + p.val, by have h : t.val < 64 := t.isLt; have := p.isLt; omega⟩

/-- Window 0 and the output window move down the rows with the grid point. -/
theorem idx0 : ∀ t : Fin cfg0.N, win0_0.index t (0 : Fin 2) = t.val ∧ win0_0.index t (1 : Fin 2) = 0
    ∧ win0_12.index t (0 : Fin 2) = t.val ∧ win0_12.index t (1 : Fin 2) = 0 :=
  (by decide +kernel : ∀ t : Fin grid0.N, win0_0.index t (0 : Fin 2) = t.val ∧ win0_0.index t (1 : Fin 2) = 0
    ∧ win0_12.index t (0 : Fin 2) = t.val ∧ win0_12.index t (1 : Fin 2) = 0)

/-- Row `p` of point `t`'s block of `x` is row `2048 t + p` of `x`. -/
theorem blk0 (c : Dev nD) (t : Fin cfg0.N) (p : Fin 2048) :
    brow (iblk m c 0 t : S2048x256.Idx → EReal) p = fun k => (m ((c : Thread nD τ).loc main_arg0)) (ix2 (rowOf t p) k) := by
  obtain ⟨e0, e1, -, -⟩ := idx0 t
  funext k
  show V m c main_arg0 (((cfg0.win 0).blk t).view.emb (ix2 p k)) = _
  rw [V_main_arg0]
  refine congrArg _ (Shape.idx_ext₂ ?_ ?_)
  · show win0_0.index t (0 : Fin 2) * 2048 + 1 * p.val = t.val * 2048 + p.val; omega
  · show win0_0.index t (1 : Fin 2) * 256 + 1 * k.val = k.val; omega

/-- Entry `(p, q)` of point `t`'s output block is entry `(2048 t + p, q)` of the result array. -/
theorem emb12 (t : Fin cfg0.N) (p : Fin 2048) (q : Fin 1) :
    ((cfg0.win 12).blk t).view.emb (ix2 p q) = (ix2 (rowOf t p) q : S131072x1.Idx) := by
  obtain ⟨-, -, e0, e1⟩ := idx0 t
  refine Shape.idx_ext₂ ?_ ?_
  · show win0_12.index t (0 : Fin 2) * 2048 + 1 * p.val = t.val * 2048 + p.val; omega
  · show win0_12.index t (1 : Fin 2) * 1 + 1 * q.val = q.val; omega

/-! The six weight windows: each is its whole array at every point. -/

theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem blk1 (c : Dev nD) (t : Fin cfg0.N) : (iblk m c 1 t : S256x1.Idx → EReal) = m ((c : Thread nD τ).loc main_arg1) :=
  funext fun y => (congrArg (V m c main_arg1) (idx_of_origin (i0 := win0_1.index t 0) (s0 := 256) (i1 := win0_1.index t 1) (s1 := 1)
    (idx1 t).1 (idx1 t).2 rfl rfl)).trans (congrFun (V_main_arg1 m c) y)

theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem blk3 (c : Dev nD) (t : Fin cfg0.N) : (iblk m c 3 t : S256x256.Idx → EReal) = m ((c : Thread nD τ).loc main_arg3) :=
  funext fun y => (congrArg (V m c main_arg3) (idx_of_origin (i0 := win0_3.index t 0) (s0 := 256) (i1 := win0_3.index t 1) (s1 := 256)
    (idx3 t).1 (idx3 t).2 rfl rfl)).trans (congrFun (V_main_arg3 m c) y)

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem blk4 (c : Dev nD) (t : Fin cfg0.N) : (iblk m c 4 t : S256x128.Idx → EReal) = m ((c : Thread nD τ).loc main_arg4) :=
  funext fun y => (congrArg (V m c main_arg4) (idx_of_origin (i0 := win0_4.index t 0) (s0 := 256) (i1 := win0_4.index t 1) (s1 := 128)
    (idx4 t).1 (idx4 t).2 rfl rfl)).trans (congrFun (V_main_arg4 m c) y)

theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem blk6 (c : Dev nD) (t : Fin cfg0.N) : (iblk m c 6 t : S128x85.Idx → EReal) = m ((c : Thread nD τ).loc main_arg6) :=
  funext fun y => (congrArg (V m c main_arg6) (idx_of_origin (i0 := win0_6.index t 0) (s0 := 128) (i1 := win0_6.index t 1) (s1 := 85)
    (idx6 t).1 (idx6 t).2 rfl rfl)).trans (congrFun (V_main_arg6 m c) y)

theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem blk8 (c : Dev nD) (t : Fin cfg0.N) : (iblk m c 8 t : S85x64.Idx → EReal) = m ((c : Thread nD τ).loc main_arg8) :=
  funext fun y => (congrArg (V m c main_arg8) (idx_of_origin (i0 := win0_8.index t 0) (s0 := 85) (i1 := win0_8.index t 1) (s1 := 64)
    (idx8 t).1 (idx8 t).2 rfl rfl)).trans (congrFun (V_main_arg8 m c) y)

theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem blk10 (c : Dev nD) (t : Fin cfg0.N) : (iblk m c 10 t : S64x1.Idx → EReal) = m ((c : Thread nD τ).loc main_arg10) :=
  funext fun y => (congrArg (V m c main_arg10) (idx_of_origin (i0 := win0_10.index t 0) (s0 := 64) (i1 := win0_10.index t 1) (s1 := 1)
    (idx10 t).1 (idx10 t).2 rfl rfl)).trans (congrFun (V_main_arg10 m c) y)

/-! The five bias windows: each is the whole `[1, n]` row that the host's reshape made of a `[n]` bias before the
    region, so its entry `(0, j)` is entry `j` of the bias. -/

theorem host_v0 (c : Dev nD) : (V m c main_v0 : S1x1.Idx → EReal)
    = shapeCast S1x1 (m ((c : Thread nD τ).loc main_arg2) : S1.Idx → EReal) Gen.shapeCasts_S1_S1x1 := by
  dsimp only [Gen.V, Gen.hostOps0]; after_results; rfl
theorem host_v1 (c : Dev nD) : (V m c main_v1 : S1x128.Idx → EReal)
    = shapeCast S1x128 (m ((c : Thread nD τ).loc main_arg5) : S128.Idx → EReal) Gen.shapeCasts_S128_S1x128 := by
  dsimp only [Gen.V, Gen.hostOps0]; after_results; rfl
theorem host_v2 (c : Dev nD) : (V m c main_v2 : S1x85.Idx → EReal)
    = shapeCast S1x85 (m ((c : Thread nD τ).loc main_arg7) : S85.Idx → EReal) Gen.shapeCasts_S85_S1x85 := by
  dsimp only [Gen.V, Gen.hostOps0]; after_results; rfl
theorem host_v3 (c : Dev nD) : (V m c main_v3 : S1x64.Idx → EReal)
    = shapeCast S1x64 (m ((c : Thread nD τ).loc main_arg9) : S64.Idx → EReal) Gen.shapeCasts_S64_S1x64 := by
  dsimp only [Gen.V, Gen.hostOps0]; after_results; rfl
theorem host_v4 (c : Dev nD) : (V m c main_v4 : S1x1.Idx → EReal)
    = shapeCast S1x1 (m ((c : Thread nD τ).loc main_arg11) : S1.Idx → EReal) Gen.shapeCasts_S1_S1x1 := by
  dsimp only [Gen.V, Gen.hostOps0]; after_results; rfl

theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem blk2 (c : Dev nD) (t : Fin cfg0.N) :
    bias (iblk m c 2 t : S1x1.Idx → EReal) = vec (m ((c : Thread nD τ).loc main_arg2)) :=
  funext fun j => (congrArg (V m c main_v0) (idx_of_origin (y := (ix2 0 j : S1x1.Idx)) (i0 := win0_2.index t 0) (s0 := 1)
    (i1 := win0_2.index t 1) (s1 := 1) (idx2 t).1 (idx2 t).2 rfl rfl)).trans
      ((congrFun (host_v0 m c) (ix2 0 j)).trans (shapeCast_row _ _ j))

theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem blk5 (c : Dev nD) (t : Fin cfg0.N) :
    bias (iblk m c 5 t : S1x128.Idx → EReal) = vec (m ((c : Thread nD τ).loc main_arg5)) :=
  funext fun j => (congrArg (V m c main_v1) (idx_of_origin (y := (ix2 0 j : S1x128.Idx)) (i0 := win0_5.index t 0) (s0 := 1)
    (i1 := win0_5.index t 1) (s1 := 128) (idx5 t).1 (idx5 t).2 rfl rfl)).trans
      ((congrFun (host_v1 m c) (ix2 0 j)).trans (shapeCast_row _ _ j))

theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem blk7 (c : Dev nD) (t : Fin cfg0.N) :
    bias (iblk m c 7 t : S1x85.Idx → EReal) = vec (m ((c : Thread nD τ).loc main_arg7)) :=
  funext fun j => (congrArg (V m c main_v2) (idx_of_origin (y := (ix2 0 j : S1x85.Idx)) (i0 := win0_7.index t 0) (s0 := 1)
    (i1 := win0_7.index t 1) (s1 := 85) (idx7 t).1 (idx7 t).2 rfl rfl)).trans
      ((congrFun (host_v2 m c) (ix2 0 j)).trans (shapeCast_row _ _ j))

theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem blk9 (c : Dev nD) (t : Fin cfg0.N) :
    bias (iblk m c 9 t : S1x64.Idx → EReal) = vec (m ((c : Thread nD τ).loc main_arg9)) :=
  funext fun j => (congrArg (V m c main_v3) (idx_of_origin (y := (ix2 0 j : S1x64.Idx)) (i0 := win0_9.index t 0) (s0 := 1)
    (i1 := win0_9.index t 1) (s1 := 64) (idx9 t).1 (idx9 t).2 rfl rfl)).trans
      ((congrFun (host_v3 m c) (ix2 0 j)).trans (shapeCast_row _ _ j))

theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem blk11 (c : Dev nD) (t : Fin cfg0.N) :
    bias (iblk m c 11 t : S1x1.Idx → EReal) = vec (m ((c : Thread nD τ).loc main_arg11)) :=
  funext fun j => (congrArg (V m c main_v4) (idx_of_origin (y := (ix2 0 j : S1x1.Idx)) (i0 := win0_11.index t 0) (s0 := 1)
    (i1 := win0_11.index t 1) (s1 := 1) (idx11 t).1 (idx11 t).2 rfl rfl)).trans
      ((congrFun (host_v4 m c) (ix2 0 j)).trans (shapeCast_row _ _ j))

/-! ## What a point writes back, the cover, the array -/

/-- The network applied to every row of the argument arrays as launched. -/
abbrev result (c : Dev nD) : S131072x1.Idx → EReal :=
  netArray (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- WHAT POINT `t` WRITES BACK is block `t` of `result`. -/
theorem flushed_eq (c : Dev nD) (t : Fin cfg0.N) :
    (dats m 0 c).flushed 12 t = ((cfg0.win 12).blk t).view.read (Elt Ideal) (result m c) := by
  rw [Value.flushed12]
  unfold out0_12
  rw [View.canon_unit_zero hz]
  simp only [View.ld_unit_zero (S := S2048x256) hz, View.ld_unit_zero (S := S256x1) hz, View.ld_unit_zero (S := S1x1) hz,
    View.ld_unit_zero (S := S256x256) hz, View.ld_unit_zero (S := S256x128) hz, View.ld_unit_zero (S := S1x128) hz,
    View.ld_unit_zero (S := S128x85) hz, View.ld_unit_zero (S := S1x85) hz, View.ld_unit_zero (S := S85x64) hz,
    View.ld_unit_zero (S := S1x64) hz, View.ld_unit_zero (S := S64x1) hz]
  funext y
  obtain ⟨p, q, rfl⟩ : ∃ (p : Fin 2048) (q : Fin 1), y = ix2 p q := ⟨y 0, y 1, eq_ix2 y⟩
  show k0_pay1 (F := Ideal) (k0_pay3 (F := Ideal) (iblk m c 0 t) (iblk m c 1 t) (iblk m c 2 t))
      (k0_pay4 (F := Ideal) (iblk m c 0 t) (iblk m c 3 t) (iblk m c 4 t) (iblk m c 5 t) (iblk m c 6 t))
      (iblk m c 7 t) (iblk m c 8 t) (iblk m c 9 t) (iblk m c 10 t) (iblk m c 11 t) (ix2 p q)
    = result m c (((cfg0.win 12).blk t).view.emb (ix2 p q))
  refine (payload_row (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) p q).trans ?_
  rw [emb12 t p q, blk0 m c t p, blk1 m c t, blk2 m c t, blk3 m c t, blk4 m c t, blk5 m c t, blk6 m c t, blk7 m c t,
    blk8 m c t, blk9 m c t, blk10 m c t, blk11 m c t]
  rfl

/-- An index of the result array is in point `t`'s block iff each coordinate is in the block's range on its axis. -/
theorem mem_blk (t : Fin cfg0.N) (i : S131072x1.Idx) :
    i ∈ ((cfg0.win 12).blk t).view.set ↔ ∀ a : Fin 2, win0_12.index t a * S2048x1.size a ≤ (i a).val ∧ (i a).val < win0_12.index t a * S2048x1.size a + S2048x1.size a := by
  show i ∈ ((View.whole main_v5).slice (win0_12.rect t)).set ↔ _
  rw [View.set_slice_whole, Rect.mem_set_unit]
  exact Iff.rfl

/-- Every row of the result is in the block of the point `row / 2048`. -/
theorem cover (i : S131072x1.Idx) : ∃ t : Fin cfg0.N, (cfg0.win 12).flush t = true ∧ i ∈ ((cfg0.win 12).blk t).view.set := by
  have hi0 : (i 0).val < 131072 := (i 0).isLt
  have hi1 : (i 1).val < 1 := (i 1).isLt
  have hN : cfg0.N = 64 := N_0
  refine ⟨⟨(i 0).val / 2048, by rw [hN]; omega⟩, flush0_12 _, ?_⟩
  obtain ⟨-, -, e0, e1⟩ := idx0 ⟨(i 0).val / 2048, by rw [hN]; omega⟩
  rw [mem_blk]
  intro a
  match a with
  | ⟨0, _⟩ => show win0_12.index _ (0 : Fin 2) * 2048 ≤ (i 0).val ∧ (i 0).val < win0_12.index _ (0 : Fin 2) * 2048 + 2048
              rw [e0]; show (i 0).val / 2048 * 2048 ≤ (i 0).val ∧ (i 0).val < (i 0).val / 2048 * 2048 + 2048; omega
  | ⟨1, _⟩ => show win0_12.index _ (1 : Fin 2) * 1 ≤ (i 1).val ∧ (i 1).val < win0_12.index _ (1 : Fin 2) * 1 + 1
              rw [e1]; omega

/-- THE ARRAY after the run is `result`. -/
theorem final (c : Dev nD) : (dats m 0 c).arrAt 12 cfg0.N = result m c :=
  (dats m 0 c).arrAt_eq_of_cover 12 (result m c) (fun t _ => flushed_eq m c t) cover

/-- The kernel's run, read: the result array at the network applied to every row, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (final m c), (h c).2⟩) (Value.run_blocks m ρ)

end Cert.Nfm.Arr

end
-- ==== Proof.RefRow.lean ====
/-
  The reference, row by row.

  Every stage of the reference's program (the generated read-at-an-index module names them `val_main_vN`) is
  read at an entry `(r, j)` of its array as the corresponding stage of the network on row `r` of `x`
  (RowSpec.lean): the products by the plain-contraction lemma, the biases through their two
  `broadcast_in_dim`s, the maxima against the broadcast scalar zero, and jax's expansion of the logistic
  function — negate, exponential, add one, divide one by it — as the logistic function itself.
-/
import proofs.«146849_j81140522156065_1_alg».proof.Proof.Gen.ReferenceIdeal.Read
import proofs.«146849_j81140522156065_1_alg».proof.Proof.RowSpec

noncomputable section

namespace Cert.Nfm.Ref

open Cert.ReferenceIdeal Cert.ReferenceIdeal.Gen Cert.ReferenceIdeal.Read
open Idealize.ShloMosaic Idealize.ShloMosaic.ValueIdx Idealize.ShloMosaic.PlainDot Cert.Nfm

variable (x0 : FVec Ideal S131072x256 .f32) (x1 : FVec Ideal S256x1 .f32) (x2 : FVec Ideal S1 .f32)
  (x3 : FVec Ideal S256x256 .f32) (x4 : FVec Ideal S256x128 .f32) (x5 : FVec Ideal S128 .f32)
  (x6 : FVec Ideal S128x85 .f32) (x7 : FVec Ideal S85 .f32) (x8 : FVec Ideal S85x64 .f32)
  (x9 : FVec Ideal S64 .f32) (x10 : FVec Ideal S64x1 .f32) (x11 : FVec Ideal S1 .f32)

/-- Row `r` of the batch. -/
abbrev xrow (r : Fin 131072) : Fin 256 → EReal := fun k => x0 (ix2 r k)

/-- The pooled features: `0.5 · ((x V)² + (x²)(V²))`. -/
theorem pooled_row (r : Fin 131072) (j : Fin 256) :
    val_main_v11 (F := Ideal) x0 x3 (ix2 r j) = pooled (xrow x0 r) x3 j := by
  show Ideal.ofBits .f32 0x3F000000#32
      * (Host.dotGeneral dot_S131072x256_S256x256_S131072x256_1_0_0_1_n_n none x0 x3 (ix2 r j)
          * Host.dotGeneral dot_S131072x256_S256x256_S131072x256_1_0_0_1_n_n none x0 x3 (ix2 r j)
        + Host.dotGeneral dot_S131072x256_S256x256_S131072x256_1_0_0_1_n_n none (mulf x0 x0) (mulf x3 x3) (ix2 r j)) = _
  rw [dotGeneral_row dot_S131072x256_S256x256_S131072x256_1_0_0_1_n_n rfl none x0 x3 r j,
    dotGeneral_row dot_S131072x256_S256x256_S131072x256_1_0_0_1_n_n rfl none (mulf x0 x0) (mulf x3 x3) r j]
  rfl

/-- The first hidden layer. -/
theorem hidden1_row (r : Fin 131072) (j : Fin 128) :
    val_main_v16 (F := Ideal) x0 x3 x4 x5 (ix2 r j) = denseRelu (pooled (xrow x0 r) x3) x4 (vec x5) j :=
  (denseRelu_host dot_S131072x256_S256x128_S131072x128_1_0_0_1_n_n rfl none (val_main_v11 (F := Ideal) x0 x3) x4 x5
      Gen.bcast_S128_S1x128_1 Gen.bcast_S1x128_S131072x128_0_1 Gen.bcast_S_S131072x128 r j).trans
    (congrArg (fun h => denseRelu h x4 (vec x5) j) (funext fun k => pooled_row x0 x3 r k))

/-- The second hidden layer. -/
theorem hidden2_row (r : Fin 131072) (j : Fin 85) :
    val_main_v21 (F := Ideal) x0 x3 x4 x5 x6 x7 (ix2 r j)
      = denseRelu (denseRelu (pooled (xrow x0 r) x3) x4 (vec x5)) x6 (vec x7) j :=
  (denseRelu_host dot_S131072x128_S128x85_S131072x85_1_0_0_1_n_n rfl none (val_main_v16 (F := Ideal) x0 x3 x4 x5) x6 x7
      Gen.bcast_S85_S1x85_1 Gen.bcast_S1x85_S131072x85_0_1 Gen.bcast_S_S131072x85 r j).trans
    (congrArg (fun h => denseRelu h x6 (vec x7) j) (funext fun k => hidden1_row x0 x3 x4 x5 r k))

/-- The third hidden layer: the tower's output row. -/
theorem tower_row (r : Fin 131072) (j : Fin 64) :
    val_main_v26 (F := Ideal) x0 x3 x4 x5 x6 x7 x8 x9 (ix2 r j)
      = tower (xrow x0 r) x3 x4 (vec x5) x6 (vec x7) x8 (vec x9) j :=
  (denseRelu_host dot_S131072x85_S85x64_S131072x64_1_0_0_1_n_n rfl none (val_main_v21 (F := Ideal) x0 x3 x4 x5 x6 x7) x8 x9
      Gen.bcast_S64_S1x64_1 Gen.bcast_S1x64_S131072x64_0_1 Gen.bcast_S_S131072x64 r j).trans
    (congrArg (fun h => denseRelu h x8 (vec x9) j) (funext fun k => hidden2_row x0 x3 x4 x5 x6 x7 r k))

/-- The linear term plus the output layer. -/
theorem logit_row (r : Fin 131072) (q : Fin 1) :
    val_main_v31 (F := Ideal) x0 x1 x2 x3 x4 x5 x6 x7 x8 x9 x10 x11 (ix2 r q)
      = logit (xrow x0 r) x1 (vec x2) x3 x4 (vec x5) x6 (vec x7) x8 (vec x9) x10 (vec x11) q := by
  show val_main_v3 (F := Ideal) x0 x1 x2 (ix2 r q) + val_main_v30 (F := Ideal) x0 x3 x4 x5 x6 x7 x8 x9 x10 x11 (ix2 r q) = _
  have hlin : val_main_v3 (F := Ideal) x0 x1 x2 (ix2 r q) = dense (xrow x0 r) x1 (vec x2) q :=
    dense_host dot_S131072x256_S256x1_S131072x1_1_0_0_1_n_n rfl none x0 x1 x2 Gen.bcast_S1_S1x1_1 Gen.bcast_S1x1_S131072x1_0_1 r q
  have hdeep : val_main_v30 (F := Ideal) x0 x3 x4 x5 x6 x7 x8 x9 x10 x11 (ix2 r q)
      = dense (tower (xrow x0 r) x3 x4 (vec x5) x6 (vec x7) x8 (vec x9)) x10 (vec x11) q :=
    (dense_host dot_S131072x64_S64x1_S131072x1_1_0_0_1_n_n rfl none (val_main_v26 (F := Ideal) x0 x3 x4 x5 x6 x7 x8 x9) x10 x11
        Gen.bcast_S1_S1x1_1 Gen.bcast_S1x1_S131072x1_0_1 r q).trans
      (congrArg (fun h => dense h x10 (vec x11) q) (funext fun k => tower_row x0 x3 x4 x5 x6 x7 x8 x9 r k))
  rw [hlin, hdeep]
  rfl

/-- THE REFERENCE'S RESULT at entry `(r, q)` is the network's output for row `r`. -/
theorem result_row (r : Fin 131072) (q : Fin 1) :
    val_main_v37 (F := Ideal) x0 x1 x2 x3 x4 x5 x6 x7 x8 x9 x10 x11 (ix2 r q)
      = rowOut (xrow x0 r) x1 (vec x2) x3 x4 (vec x5) x6 (vec x7) x8 (vec x9) x10 (vec x11) q := by
  show Ideal.div (Ideal.ofBits .f32 0x3F800000#32) (Ideal.ofBits .f32 0x3F800000#32
      + Ideal.exp (-(val_main_v31 (F := Ideal) x0 x1 x2 x3 x4 x5 x6 x7 x8 x9 x10 x11 (ix2 r q)))) = _
  rw [div_one_add_exp_neg, logit_row]
  rfl

/-- So the reference's result array is the network applied to every row. -/
theorem result_eq :
    val_main_v37 (F := Ideal) x0 x1 x2 x3 x4 x5 x6 x7 x8 x9 x10 x11 = netArray x0 x1 x2 x3 x4 x5 x6 x7 x8 x9 x10 x11 := by
  funext i
  obtain ⟨r, q, rfl⟩ : ∃ (r : Fin 131072) (q : Fin 1), i = ix2 r q := ⟨i 0, i 1, eq_ix2 i⟩
  exact result_row x0 x1 x2 x3 x4 x5 x6 x7 x8 x9 x10 x11 r q

end Cert.Nfm.Ref

end
-- ==== Proof.lean ====
/-
  The certificate of a neural factorization machine's forward pass: a fused kernel that tiles the batch of 131072 rows
  into 64 blocks of 2048 rows, against the plain array program.

  For each row `x_r` both programs compute
      logistic( x_r · w_wide + b_wide  +  relu³-tower( 0.5 · ((x_r V)² + (x_r²)(V²)) ) · w_out + b_out ),
  the tower being three dense layers with bias and maximum with zero (256 → 128 → 85 → 64). The kernel narrows every
  matrix-unit operand to bf16 and accumulates in f32 — on the extended reals a change of float format is the
  identity and a product into a zero accumulator is the exact sum, as the host's `dot_general` is — and applies the
  logistic function as one operation where jax's reference expands it into `1 / (1 + e^(-z))`; on the extended reals
  these are one function, the infinities included. No law of arithmetic beyond that is used: the two sides are the same
  sums of the same products in the same order, so finiteness of the inputs is never opened.

  The proof states the network once as a function of one row (Proof/RowSpec.lean), reads the reference's generated
  stages at a row (Proof/RefRow.lean), reads the kernel's stored payload at a row of a block (Proof/KernelRow.lean), and
  carries the blocks to the whole result array over the generated blockwise run (Proof/KernelArray.lean). The two
  word-level and ideal frames of the kernel are the generated ones; the reference's frame is its generated run.
  The idealization rewrote no operation, so `preserves` has nothing to state.
-/
import proofs.«146849_j81140522156065_1_alg».proof.Defs
import proofs.«146849_j81140522156065_1_alg».proof.Proof.Gen.Kernel
import proofs.«146849_j81140522156065_1_alg».proof.Proof.Gen.Kernel.Skeleton
import proofs.«146849_j81140522156065_1_alg».proof.Proof.Gen.Kernel.Launch
import proofs.«146849_j81140522156065_1_alg».proof.Proof.Gen.Kernel.Points
import proofs.«146849_j81140522156065_1_alg».proof.Proof.Gen.Kernel.Frame
import proofs.«146849_j81140522156065_1_alg».proof.Proof.Gen.KernelIdeal
import proofs.«146849_j81140522156065_1_alg».proof.Proof.Gen.KernelIdeal.Skeleton
import proofs.«146849_j81140522156065_1_alg».proof.Proof.Gen.KernelIdeal.Launch
import proofs.«146849_j81140522156065_1_alg».proof.Proof.Gen.KernelIdeal.Points
import proofs.«146849_j81140522156065_1_alg».proof.Proof.Gen.KernelIdeal.Frame
import proofs.«146849_j81140522156065_1_alg».proof.Proof.Gen.ReferenceIdeal
import proofs.«146849_j81140522156065_1_alg».proof.Proof.Gen.Pre_finite_inputs
import proofs.«146849_j81140522156065_1_alg».proof.Proof.Gen.KernelIdeal.Value
import proofs.«146849_j81140522156065_1_alg».proof.Proof.Gen.ReferenceIdeal.Run
import proofs.«146849_j81140522156065_1_alg».proof.Proof.Gen.ReferenceIdeal.Read
import proofs.«146849_j81140522156065_1_alg».proof.Proof.KernelArray
import proofs.«146849_j81140522156065_1_alg».proof.Proof.RefRow
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the network applied to every row of `x`: the kernel block by block, the reference stage by
    stage; from memories that agree on the arguments these are one array. -/
theorem algebraic : Cert.algebraic_KernelIdeal_ReferenceIdeal := by
  intro m ρ m' ρ' _ hagree
  refine ⟨fun c => Cert.Nfm.Arr.result m c, Cert.Nfm.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v37_eq, Cert.Nfm.Ref.result_eq, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
